-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x32x64x128x128 : Shape := ⟨5, ![2, 32, 64, 128, 128]⟩
abbrev S2x32 : Shape := ⟨2, ![2, 32]⟩
abbrev S_ : Shape := ⟨0, ![]⟩

class Facts : Prop where
  bcast_S_S2x32x64x128x128 : S_.BroadcastsInDim S2x32x64x128x128 (![] : Fin 0 → Fin S2x32x64x128x128.rank)
  reducesTo_S2x32x64x128x128_S_d0_1_2_3_4 : S2x32x64x128x128.ReducesTo [0, 1, 2, 3, 4] S_
  h_S_ : 0 < S_.numel

variable [Facts]

def fn {F : FTy → Type} [FloatOps F] (main_arg0 : FVec F S2x32x64x128x128 .f32) (main_arg1 : FVec F S2x32x64x128x128 .f32) (main_arg2 : IVec S2x32 32) : IVec S_ 1 :=
  let main_v0 : FVec F S2x32x64x128x128 .f32 := Host.absf main_arg0
  let main_cst : FVec F S_ .f32 := constant S_ .f32 0x7F800000#32
  let main_v1 : FVec F S2x32x64x128x128 .f32 := broadcastInDim S2x32x64x128x128 ![] bcast_S_S2x32x64x128x128 main_cst
  let main_v2 : IVec S2x32x64x128x128 1 := cmpf .olt main_v0 main_v1
  let main_c : IVec S_ 1 := constantI S_ 1 1#1
  let main_v3 : IVec S_ 1 := (fun x v => Host.reduce IntOp.andi x v reducesTo_S2x32x64x128x128_S_d0_1_2_3_4 h_S_) main_v2 main_c
  let main_v4 : FVec F S2x32x64x128x128 .f32 := Host.absf main_arg1
  let main_cst_0 : FVec F S_ .f32 := constant S_ .f32 0x7F800000#32
  let main_v5 : FVec F S2x32x64x128x128 .f32 := broadcastInDim S2x32x64x128x128 ![] bcast_S_S2x32x64x128x128 main_cst_0
  let main_v6 : IVec S2x32x64x128x128 1 := cmpf .olt main_v4 main_v5
  let main_c_1 : IVec S_ 1 := constantI S_ 1 1#1
  let main_v7 : IVec S_ 1 := (fun x v => Host.reduce IntOp.andi x v reducesTo_S2x32x64x128x128_S_d0_1_2_3_4 h_S_) main_v6 main_c_1
  let main_v8 : IVec S_ 1 := andi main_v3 main_v7
  main_v8
-- ==== Kernel.lean ====
abbrev S2x32x64x128x128 : Shape := ⟨5, ![2, 32, 64, 128, 128]⟩
abbrev S2x32 : Shape := ⟨2, ![2, 32]⟩
abbrev S4096x16384 : Shape := ⟨2, ![4096, 16384]⟩
abbrev S4096x1 : Shape := ⟨2, ![4096, 1]⟩
abbrev S64x16384 : Shape := ⟨2, ![64, 16384]⟩
abbrev S64x1 : Shape := ⟨2, ![64, 1]⟩
abbrev S64 : Shape := ⟨1, ![64]⟩
abbrev S2x32x64 : Shape := ⟨3, ![2, 32, 64]⟩
abbrev S_ : Shape := ⟨0, ![]⟩
abbrev S2x32x64x1x1 : Shape := ⟨5, ![2, 32, 64, 1, 1]⟩

abbrev nBuf : Space → Nat
  | .hbm => 41
  | .vmem => 10
  | .smem => 0
  | _ => 0

abbrev bufTy : (tb : Table) → Fin (tcTables nBuf tb) → BufTy
  | .hbm, ⟨0, _⟩ => ⟨S2x32x64x128x128, .f32⟩
  | .hbm, ⟨1, _⟩ => ⟨S2x32x64x128x128, .f32⟩
  | .hbm, ⟨2, _⟩ => ⟨S2x32, .i32⟩
  | .hbm, ⟨3, _⟩ => ⟨S4096x16384, .f32⟩
  | .hbm, ⟨4, _⟩ => ⟨S4096x16384, .f32⟩
  | .hbm, ⟨5, _⟩ => ⟨S4096x1, .f32⟩
  | .hbm, ⟨6, _⟩ => ⟨S4096x1, .f32⟩
  | .hbm, ⟨7, _⟩ => ⟨S4096x1, .f32⟩
  | .hbm, ⟨8, _⟩ => ⟨S2x32x64, .f32⟩
  | .hbm, ⟨9, _⟩ => ⟨S2x32x64, .f32⟩
  | .hbm, ⟨10, _⟩ => ⟨S2x32x64, .f32⟩
  | .hbm, ⟨11, _⟩ => ⟨S2x32x64, .f32⟩
  | .hbm, ⟨12, _⟩ => ⟨S_, .f32⟩
  | .hbm, ⟨13, _⟩ => ⟨S2x32x64, .f32⟩
  | .hbm, ⟨14, _⟩ => ⟨S2x32x64, .f32⟩
  | .hbm, ⟨15, _⟩ => ⟨S_, .f32⟩
  | .hbm, ⟨16, _⟩ => ⟨S2x32x64, .f32⟩
  | .hbm, ⟨17, _⟩ => ⟨S2x32x64, .f32⟩
  | .hbm, ⟨18, _⟩ => ⟨S2x32x64, .f32⟩
  | .hbm, ⟨19, _⟩ => ⟨S_, .f32⟩
  | .hbm, ⟨20, _⟩ => ⟨S2x32x64, .f32⟩
  | .hbm, ⟨21, _⟩ => ⟨S2x32x64, .f32⟩
  | .hbm, ⟨22, _⟩ => ⟨S2x32x64x1x1, .f32⟩
  | .hbm, ⟨23, _⟩ => ⟨S2x32x64, .f32⟩
  | .hbm, ⟨24, _⟩ => ⟨S_, .f32⟩
  | .hbm, ⟨25, _⟩ => ⟨S2x32x64, .f32⟩
  | .hbm, ⟨26, _⟩ => ⟨S2x32x64, .i1⟩
  | .hbm, ⟨27, _⟩ => ⟨S2x32x64, .f32⟩
  | .hbm, ⟨28, _⟩ => ⟨S2x32x64, .f32⟩
  | .hbm, ⟨29, _⟩ => ⟨S_, .f32⟩
  | .hbm, ⟨30, _⟩ => ⟨S2x32, .f32⟩
  | .hbm, ⟨31, _⟩ => ⟨S_, .f32⟩
  | .hbm, ⟨32, _⟩ => ⟨S2x32, .f32⟩
  | .hbm, ⟨33, _⟩ => ⟨S2x32, .f32⟩
  | .hbm, ⟨34, _⟩ => ⟨S2x32, .f32⟩
  | .hbm, ⟨35, _⟩ => ⟨S2x32, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .local _ .vmem, ⟨0, _⟩ => ⟨S64x16384, .f32⟩
  | .local _ .vmem, ⟨1, _⟩ => ⟨S64x16384, .f32⟩
  | .local _ .vmem, ⟨2, _⟩ => ⟨S64x16384, .f32⟩
  | .local _ .vmem, ⟨3, _⟩ => ⟨S64x16384, .f32⟩
  | .local _ .vmem, ⟨4, _⟩ => ⟨S64x1, .f32⟩
  | .local _ .vmem, ⟨5, _⟩ => ⟨S64x1, .f32⟩
  | .local _ .vmem, ⟨6, _⟩ => ⟨S64x1, .f32⟩
  | .local _ .vmem, ⟨7, _⟩ => ⟨S64x1, .f32⟩
  | .local _ .vmem, ⟨8, _⟩ => ⟨S64x1, .f32⟩
  | .local _ .vmem, ⟨9, _⟩ => ⟨S64x1, .f32⟩
  | _, _ => ⟨S2x32x64x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S2x32x64x128x128_S4096x16384 : S2x32x64x128x128.ShapeCasts S4096x16384
  inb_S64x16384_S64x16384_0_0 : ∀ a, (![0, 0] : Fin 2 → Nat) a + S64x16384.size a ≤ S64x16384.size a
  h_S64x16384 : 0 < S64x16384.numel
  shapeCasts_S64x16384_S64x16384 : S64x16384.ShapeCasts S64x16384
  reduces_S64x16384_S64 : S64x16384.Reduces [1] S64
  shapeCasts_S64_S64x1 : S64.ShapeCasts S64x1
  inb_S64x1_S64x1_0_0 : ∀ a, (![0, 0] : Fin 2 → Nat) a + S64x1.size a ≤ S64x1.size a
  h_S64x1 : 0 < S64x1.numel
  shapeCasts_S4096x1_S2x32x64 : S4096x1.ShapeCasts S2x32x64
  bcast_S_S2x32x64 : S_.BroadcastsInDim S2x32x64 (![] : Fin 0 → Fin S2x32x64.rank)
  slices_S2x32x64x128x128_S2x32x64x1x1_0_0_0_0_0 : S2x32x64x128x128.Slices ![0, 0, 0, 0, 0] S2x32x64x1x1
  shapeCasts_S2x32x64x1x1_S2x32x64 : S2x32x64x1x1.ShapeCasts S2x32x64
  reducesTo_S2x32x64_S2x32_d2 : S2x32x64.ReducesTo [2] S2x32
  h_S_ : 0 < S_.numel
  reducesTo_S2x32_S_d0_1 : S2x32.ReducesTo [0, 1] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x16384.size a ≤ S4096x16384.size a
  hwx0_0 : ∀ i : grid0.Coords, EltTy.bits .f32 = 32 ∨ (Rect.block (s := S4096x16384) S64x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x16384.size a ≤ S4096x16384.size a
  hwx0_1 : ∀ i : grid0.Coords, EltTy.bits .f32 = 32 ∨ (Rect.block (s := S4096x16384) S64x16384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S4096x1.size a
  hwx0_2 : ∀ i : grid0.Coords, EltTy.bits .f32 = 32 ∨ (Rect.block (s := S4096x1) S64x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x1.size a ≤ S4096x1.size a
  hwx0_3 : ∀ i : grid0.Coords, EltTy.bits .f32 = 32 ∨ (Rect.block (s := S4096x1) S64x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x1.size a ≤ S4096x1.size a
  hwx0_4 : ∀ i : grid0.Coords, EltTy.bits .f32 = 32 ∨ (Rect.block (s := S4096x1) S64x1.size (cc0_transform_4 i) (hinb0_4 i)).WholeWords (EltTy.packing .f32)

variable [Facts₀]

abbrev win0_0 : Pipeline.Window sig grid0 :=
  Pipeline.Window.ofSpec (Memref.whole main_v0) S64x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S64x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S64x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_2) S64x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x32x64x128x128 : Shape := ⟨5, ![2, 32, 64, 128, 128]⟩
abbrev S2x32 : Shape := ⟨2, ![2, 32]⟩
abbrev S_ : Shape := ⟨0, ![]⟩
abbrev S2x32x64x16384 : Shape := ⟨4, ![2, 32, 64, 16384]⟩
abbrev S2x32x64 : Shape := ⟨3, ![2, 32, 64]⟩
abbrev S2x32x64x1 : Shape := ⟨4, ![2, 32, 64, 1]⟩

abbrev nBuf : Space → Nat
  | .hbm => 50
  | .vmem => 0
  | .smem => 0
  | _ => 0

abbrev bufTy : (tb : Table) → Fin (tcTables nBuf tb) → BufTy
  | .hbm, ⟨0, _⟩ => ⟨S2x32x64x128x128, .f32⟩
  | .hbm, ⟨1, _⟩ => ⟨S2x32x64x128x128, .f32⟩
  | .hbm, ⟨2, _⟩ => ⟨S2x32, .i32⟩
  | .hbm, ⟨3, _⟩ => ⟨S2x32x64x128x128, .f32⟩
  | .hbm, ⟨4, _⟩ => ⟨S2x32x64x128x128, .f32⟩
  | .hbm, ⟨5, _⟩ => ⟨S_, .f32⟩
  | .hbm, ⟨6, _⟩ => ⟨S2x32x64x128x128, .f32⟩
  | .hbm, ⟨7, _⟩ => ⟨S2x32x64x128x128, .f32⟩
  | .hbm, ⟨8, _⟩ => ⟨S_, .f32⟩
  | .hbm, ⟨9, _⟩ => ⟨S2x32x64x128x128, .f32⟩
  | .hbm, ⟨10, _⟩ => ⟨S2x32x64x128x128, .f32⟩
  | .hbm, ⟨11, _⟩ => ⟨S2x32x64x16384, .f32⟩
  | .hbm, ⟨12, _⟩ => ⟨S2x32x64x16384, .f32⟩
  | .hbm, ⟨13, _⟩ => ⟨S2x32x64x16384, .f32⟩
  | .hbm, ⟨14, _⟩ => ⟨S_, .f32⟩
  | .hbm, ⟨15, _⟩ => ⟨S2x32x64, .f32⟩
  | .hbm, ⟨16, _⟩ => ⟨S_, .f32⟩
  | .hbm, ⟨17, _⟩ => ⟨S2x32x64, .f32⟩
  | .hbm, ⟨18, _⟩ => ⟨S_, .f32⟩
  | .hbm, ⟨19, _⟩ => ⟨S2x32x64, .f32⟩
  | .hbm, ⟨20, _⟩ => ⟨S2x32x64, .f32⟩
  | .hbm, ⟨21, _⟩ => ⟨S_, .f32⟩
  | .hbm, ⟨22, _⟩ => ⟨S2x32x64, .f32⟩
  | .hbm, ⟨23, _⟩ => ⟨S2x32x64, .f32⟩
  | .hbm, ⟨24, _⟩ => ⟨S_, .f32⟩
  | .hbm, ⟨25, _⟩ => ⟨S2x32x64, .f32⟩
  | .hbm, ⟨26, _⟩ => ⟨S2x32x64, .f32⟩
  | .hbm, ⟨27, _⟩ => ⟨S2x32x64, .f32⟩
  | .hbm, ⟨28, _⟩ => ⟨S_, .f32⟩
  | .hbm, ⟨29, _⟩ => ⟨S2x32x64, .f32⟩
  | .hbm, ⟨30, _⟩ => ⟨S2x32x64, .f32⟩
  | .hbm, ⟨31, _⟩ => ⟨S2x32x64x1, .f32⟩
  | .hbm, ⟨32, _⟩ => ⟨S2x32x64, .f32⟩
  | .hbm, ⟨33, _⟩ => ⟨S_, .f32⟩
  | .hbm, ⟨34, _⟩ => ⟨S2x32x64, .f32⟩
  | .hbm, ⟨35, _⟩ => ⟨S2x32x64, .i1⟩
  | .hbm, ⟨36, _⟩ => ⟨S2x32x64, .f32⟩
  | .hbm, ⟨37, _⟩ => ⟨S2x32x64, .f32⟩
  | .hbm, ⟨38, _⟩ => ⟨S_, .f32⟩
  | .hbm, ⟨39, _⟩ => ⟨S2x32, .f32⟩
  | .hbm, ⟨40, _⟩ => ⟨S_, .f32⟩
  | .hbm, ⟨41, _⟩ => ⟨S2x32, .f32⟩
  | .hbm, ⟨42, _⟩ => ⟨S2x32, .f32⟩
  | .hbm, ⟨43, _⟩ => ⟨S2x32, .f32⟩
  | .hbm, ⟨44, _⟩ => ⟨S2x32, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | _, _ => ⟨S2x32x64x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_cst_4 : Ref sig .tc := ⟨.hbm, 21, rfl⟩
abbrev main_v13 : Ref sig .tc := ⟨.hbm, 22, rfl⟩
abbrev main_v14 : Ref sig .tc := ⟨.hbm, 23, rfl⟩
abbrev main_cst_5 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_6 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_7 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_8 : Ref sig .tc := ⟨.hbm, 38, rfl⟩
abbrev main_v26 : Ref sig .tc := ⟨.hbm, 39, rfl⟩
abbrev main_cst_9 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_10 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩

abbrev nD : Nat := 1
abbrev τ : Topo := Topo.v7x

variable {F : FTy → Type} [FloatOps F]

class Facts₀ : Prop where
  bcast_S_S2x32x64x128x128 : S_.BroadcastsInDim S2x32x64x128x128 (![] : Fin 0 → Fin S2x32x64x128x128.rank)
  shapeCasts_S2x32x64x128x128_S2x32x64x16384 : S2x32x64x128x128.ShapeCasts S2x32x64x16384
  reducesTo_S2x32x64x16384_S2x32x64_d3 : S2x32x64x16384.ReducesTo [3] S2x32x64
  h_S_ : 0 < S_.numel
  bcast_S_S2x32x64 : S_.BroadcastsInDim S2x32x64 (![] : Fin 0 → Fin S2x32x64.rank)
  slices_S2x32x64x16384_S2x32x64x1_0_0_0_0 : S2x32x64x16384.Slices ![0, 0, 0, 0] S2x32x64x1
  shapeCasts_S2x32x64x1_S2x32x64 : S2x32x64x1.ShapeCasts S2x32x64
  reducesTo_S2x32x64_S2x32_d2 : S2x32x64.ReducesTo [2] S2x32
  reducesTo_S2x32_S_d0_1 : S2x32.ReducesTo [0, 1] S_

variable [Facts₀]

class Facts : Prop extends Facts₀ where

variable [Facts]
-- ==== Proof.LibReshapeTwice.lean ====
/-
  Two reshapes in a row are one reshape.

  A reshape keeps every element at its row-major position, so reshaping to a shape `t` and from there to a
  shape `u` reads, at an index of `u`, the element of the original array with that same row-major position:
  the same element the direct reshape to `u` reads. Nothing about the shapes is used beyond their having
  equally many elements.
-/
import Idealize.ShloMosaic.Lib.Pipeline.Value

namespace Cert.Lib

open Idealize.ShloMosaic

/-- Reshaping `s → t → u` is reshaping `s → u` (whatever witness of the equal element counts the direct
    reshape carries). -/
theorem shapeCast_twice {s t u : Shape} {α : Type} (v : s.Idx → α) (h : s.ShapeCasts t) (h' : t.ShapeCasts u)
    (h'' : s.ShapeCasts u) : shapeCast u (shapeCast t v h) h' = shapeCast u v h'' :=
  funext fun j => congrArg v (Shape.reshapeEquiv_reshapeEquiv h h' j)

/-- An operation applied element by element commutes with a reshape. -/
theorem shapeCast_map {s t : Shape} {α β : Type} (f : α → β) (v : s.Idx → α) (h : s.ShapeCasts t) (j : t.Idx) :
    shapeCast t (fun i => f (v i)) h j = f (shapeCast t v h j) := rfl

end Cert.Lib
-- ==== Proof.DiceTail.lean ====
/-
  The part of the Dice loss that both programs compute the same way, as ONE function.

  For a batch entry b, an organ c and a depth slice d, write
    I(b,c,d) = Σ_n p·t   (the intersection),   P(b,c,d) = Σ_n p,   T(b,c,d) = Σ_n t
  for the sums over the 128·128 pixels n of the slice, p the sigmoid of the prediction and t the target.
  From those three arrays, the first pixel t₀(b,c,d) of each target slice and the organ mask M(b,c), the loss is

    dice(b,c,d)  = 1 − 2·I / (P + T + 1)
    valid(b,c,d) = 1 if t₀ ≠ −1, else 0
    loss(b,c)    = (Σ_d dice·valid) / (Σ_d valid)
    result       = (Σ_{b,c} loss·M) / (Σ_{b,c} M).

  Both the kernel's host code after its pallas_call and the reference spell exactly these operations, in this
  order and with these four literals (1, 2, −1, 0), so the two results are `tail` of their own (I, P, T, t₀, M),
  and they are equal as soon as those five arrays are. Nothing here is ever unfolded: no law of the extended
  reals is needed for this part, in particular none that would ask the inputs to be finite.
-/
import Idealize.ShloMosaic.PureOps.Ideal
import Idealize.ShloMosaic.Lib.ValueIdx

noncomputable section

namespace Cert.Dice

open Idealize.ShloMosaic

/-- One number per (batch entry, organ, depth slice). -/
abbrev Sbcd : Shape := ⟨3, ![2, 32, 64]⟩
/-- One number per (batch entry, organ). -/
abbrev Sbc : Shape := ⟨2, ![2, 32]⟩
/-- A scalar. -/
abbrev Sscalar : Shape := ⟨0, ![]⟩

theorem bcast_scalar : Sscalar.BroadcastsInDim Sbcd (![] : Fin 0 → Fin Sbcd.rank) := by decide
theorem reduces_depth : Sbcd.ReducesTo [2] Sbc := by decide
theorem scalar_pos : 0 < Sscalar.numel := by decide
theorem reduces_all : Sbc.ReducesTo [0, 1] Sscalar := by decide

/-- A scalar literal laid over every (b, c, d). -/
def splat (w : BitVec 32) : FVec Ideal Sbcd .f32 :=
  broadcastInDim Sbcd ![] bcast_scalar (constant (F := Ideal) Sscalar .f32 w)

/-- The literal zero every sum starts from. -/
def zero : FVec Ideal Sscalar .f32 := constant (F := Ideal) Sscalar .f32 0x00000000#32

/-- valid(b,c,d): 1 where the slice's first target pixel is not −1, else 0. -/
def valid (t0 : FVec Ideal Sbcd .f32) : FVec Ideal Sbcd .f32 :=
  uitofp (F := Ideal) .f32 (cmpf .une t0 (splat 0xBF800000#32))

/-- dice(b,c,d) = 1 − 2·I / (P + T + 1). -/
def dice (spt sp st : FVec Ideal Sbcd .f32) : FVec Ideal Sbcd .f32 :=
  subf (splat 0x3F800000#32)
    (Host.divf (F := Ideal) (mulf (splat 0x40000000#32) spt) (addf (addf sp st) (splat 0x3F800000#32)))

/-- loss(b,c) = (Σ_d dice·valid) / (Σ_d valid). -/
def lossPerOrgan (spt sp st t0 : FVec Ideal Sbcd .f32) : FVec Ideal Sbc .f32 :=
  Host.divf (F := Ideal)
    (Host.reduceAdd (F := Ideal) (mulf (dice spt sp st) (valid t0)) zero reduces_depth scalar_pos)
    (Host.reduceAdd (F := Ideal) (valid t0) zero reduces_depth scalar_pos)

/-- result = (Σ_{b,c} loss·M) / (Σ_{b,c} M), the mask M read as a float. -/
def tail (spt sp st t0 : FVec Ideal Sbcd .f32) (mask : IVec Sbc 32) : FVec Ideal Sscalar .f32 :=
  Host.divf (F := Ideal)
    (Host.reduceAdd (F := Ideal) (mulf (lossPerOrgan spt sp st t0) (sitofp (F := Ideal) .f32 mask)) zero reduces_all scalar_pos)
    (Host.reduceAdd (F := Ideal) (sitofp (F := Ideal) .f32 mask) zero reduces_all scalar_pos)

end Cert.Dice

end
-- ==== Proof.SliceSums.lean ====
/-
  The three per-slice sums, in the kernel's layout and in the reference's, and that they are the same numbers.

  The inputs are volumes x[b,c,d,h,w] of shape [2,32,64,128,128]. A SLICE is one (b,c,d); its 128·128 pixels are
  contiguous in row-major order, and the slices follow one another in the order of (b,c,d).

  * The kernel views a volume as a matrix of 4096 rows (one per slice, row number (b·32+c)·64+d) by 16384 columns
    (the pixels), and for each row sums over the columns: a column vector [4096,1], afterwards reshaped to [2,32,64].
  * The reference views it as [2,32,64,16384] and sums over the last axis: an array [2,32,64] at once.

  Both views keep every element at its row-major position, so row (b·32+c)·64+d of the matrix IS slice (b,c,d) of
  the 4-d view, column k being pixel k: the position is ((b·32+c)·64+d)·16384+k either way. Hence the sums
  agree term by term; no property of the addition is used, only that the same terms are added in the same
  order of k.
-/
import Idealize.ShloMosaic.Lib.Pipeline.Value
import Idealize.ShloMosaic.Lib.ValueIdx
import Idealize.ShloMosaic.PureOps.Ideal
import proofs.«141777_j5471788335563_1_alg».proof.Proof.LibReshapeTwice
import proofs.«141777_j5471788335563_1_alg».proof.Proof.DiceTail

noncomputable section

namespace Cert.Dice

open Idealize.ShloMosaic Idealize.ShloMosaic.ValueIdx

/-- A volume [batch, organ, depth, height, width]. -/
abbrev Svol : Shape := ⟨5, ![2, 32, 64, 128, 128]⟩
/-- The kernel's view: one row per slice, one column per pixel. -/
abbrev Srows : Shape := ⟨2, ![4096, 16384]⟩
/-- One number per row, as the kernel stores it. -/
abbrev Scol : Shape := ⟨2, ![4096, 1]⟩
/-- The reference's view: [batch, organ, depth, pixel]. -/
abbrev Sslices : Shape := ⟨4, ![2, 32, 64, 16384]⟩

/-! ## Row sums over the kernel's view -/

/-- Σ over the pixels of row r of sigmoid(x)·t. -/
def rowPT (X T : FVec Ideal Srows .f32) (r : Fin 4096) : Ideal .f32 :=
  ∑ k : Fin 16384, Ideal.logistic (X (ix2 r k)) * T (ix2 r k)
/-- Σ over the pixels of row r of sigmoid(x). -/
def rowP (X : FVec Ideal Srows .f32) (r : Fin 4096) : Ideal .f32 :=
  ∑ k : Fin 16384, Ideal.logistic (X (ix2 r k))
/-- Σ over the pixels of row r of t. -/
def rowT (T : FVec Ideal Srows .f32) (r : Fin 4096) : Ideal .f32 :=
  ∑ k : Fin 16384, T (ix2 r k)

/-- The row an entry of a [4096,1] column belongs to. -/
abbrev rowOf (i : Scol.Idx) : Fin 4096 := ⟨(i 0).val, (i 0).isLt⟩

/-- The three columns the kernel's pallas_call leaves. -/
def colPT (X T : FVec Ideal Srows .f32) : FVec Ideal Scol .f32 := fun i => rowPT X T (rowOf i)
def colP (X : FVec Ideal Srows .f32) : FVec Ideal Scol .f32 := fun i => rowP X (rowOf i)
def colT (T : FVec Ideal Srows .f32) : FVec Ideal Scol .f32 := fun i => rowT T (rowOf i)

/-! ## Slice sums over the reference's view -/

/-- Pixel k of slice i = (b,c,d), as an index of the 4-d view. -/
abbrev pixel (i : Sbcd.Idx) (k : Fin 16384) : Sslices.Idx :=
  ix4 (⟨(i 0).val, (i 0).isLt⟩ : Fin 2) (⟨(i 1).val, (i 1).isLt⟩ : Fin 32) (⟨(i 2).val, (i 2).isLt⟩ : Fin 64) k

def slicePT (Y U : FVec Ideal Sslices .f32) : FVec Ideal Sbcd .f32 :=
  fun i => ∑ k : Fin 16384, Ideal.logistic (Y (pixel i k)) * U (pixel i k)
def sliceP (Y : FVec Ideal Sslices .f32) : FVec Ideal Sbcd .f32 :=
  fun i => ∑ k : Fin 16384, Ideal.logistic (Y (pixel i k))
def sliceT (U : FVec Ideal Sslices .f32) : FVec Ideal Sbcd .f32 :=
  fun i => ∑ k : Fin 16384, U (pixel i k)

/-! ## The two views agree -/

/-- The row of slice (b,c,d). -/
theorem row_lt (i : Sbcd.Idx) : ((i 0).val * 32 + (i 1).val) * 64 + (i 2).val < 4096 := by
  have h0 : (i 0).val < 2 := (i 0).isLt
  have h1 : (i 1).val < 32 := (i 1).isLt
  have h2 : (i 2).val < 64 := (i 2).isLt
  omega

abbrev sliceRow (i : Sbcd.Idx) : Fin 4096 := ⟨((i 0).val * 32 + (i 1).val) * 64 + (i 2).val, row_lt i⟩

/-- Entry (row of (b,c,d), column k) of the matrix view is pixel k of slice (b,c,d) of the 4-d view. -/
theorem rows_eq_slices (x : FVec Ideal Svol .f32) (h2 : Svol.ShapeCasts Srows) (h4 : Svol.ShapeCasts Sslices)
    (i : Sbcd.Idx) (k : Fin 16384) :
    shapeCast Srows x h2 (ix2 (sliceRow i) k) = shapeCast Sslices x h4 (pixel i k) := by
  have h42 : Sslices.ShapeCasts Srows := by decide
  rw [← Cert.Lib.shapeCast_twice x h4 h42 h2]
  refine shapeCast_apply _ h42 _ (pixel i k) ?_
  rw [Shape.rowMajor_val_four, Shape.rowMajor_val_two]
  rfl

/-- A [4096,1] column reshaped to [2,32,64] reads, at (b,c,d), the row of (b,c,d). -/
theorem col_reshape (v : FVec Ideal Scol .f32) (hc : Scol.ShapeCasts Sbcd) (i : Sbcd.Idx) :
    shapeCast Sbcd v hc i = v (ix2 (sliceRow i) (0 : Fin 1)) := by
  refine shapeCast_apply v hc i _ ?_
  rw [Shape.rowMajor_val_two, Shape.rowMajor_val_three]
  show (((i 0).val * 32 + (i 1).val) * 64 + (i 2).val) * 1 + 0 = ((i 0).val * 32 + (i 1).val) * 64 + (i 2).val
  omega

theorem colPT_reshape (x0 x1 : FVec Ideal Svol .f32) (h2 : Svol.ShapeCasts Srows) (h4 : Svol.ShapeCasts Sslices)
    (hc : Scol.ShapeCasts Sbcd) :
    shapeCast Sbcd (colPT (shapeCast Srows x0 h2) (shapeCast Srows x1 h2)) hc
      = slicePT (shapeCast Sslices x0 h4) (shapeCast Sslices x1 h4) := by
  funext i
  rw [col_reshape]
  show rowPT _ _ (sliceRow i) = _
  unfold rowPT slicePT
  refine Finset.sum_congr rfl fun k _ => ?_
  rw [rows_eq_slices x0 h2 h4 i k, rows_eq_slices x1 h2 h4 i k]

theorem colP_reshape (x0 : FVec Ideal Svol .f32) (h2 : Svol.ShapeCasts Srows) (h4 : Svol.ShapeCasts Sslices)
    (hc : Scol.ShapeCasts Sbcd) :
    shapeCast Sbcd (colP (shapeCast Srows x0 h2)) hc = sliceP (shapeCast Sslices x0 h4) := by
  funext i
  rw [col_reshape]
  show rowP _ (sliceRow i) = _
  unfold rowP sliceP
  refine Finset.sum_congr rfl fun k _ => ?_
  rw [rows_eq_slices x0 h2 h4 i k]

theorem colT_reshape (x1 : FVec Ideal Svol .f32) (h2 : Svol.ShapeCasts Srows) (h4 : Svol.ShapeCasts Sslices)
    (hc : Scol.ShapeCasts Sbcd) :
    shapeCast Sbcd (colT (shapeCast Srows x1 h2)) hc = sliceT (shapeCast Sslices x1 h4) := by
  funext i
  rw [col_reshape]
  show rowT _ (sliceRow i) = _
  unfold rowT sliceT
  refine Finset.sum_congr rfl fun k _ => ?_
  rw [rows_eq_slices x1 h2 h4 i k]

end Cert.Dice

end
-- ==== Proof.RowSums.lean ====
/-
  What the kernel's pallas_call leaves in its three output arrays.

  The call runs over 64 grid points. Point t is handed rows 64t … 64t+63 of the two [4096,16384] input matrices
  (a [64,16384] block of each, the whole width) and a [64,1] block of each output. Its body computes, for each of
  its 64 rows, three sums over the 16384 columns — of sigmoid(x)·t, of sigmoid(x) and of t — with a lane reduction
  whose accumulator is the neutral 0, so each is the plain sum of its row's terms. It stores the three [64,1] columns
  whole, and they are written back to rows 64t … 64t+63 of the three [4096,1] outputs.

  So what point t writes back is the restriction to its rows of ONE function of the whole input matrices —
  row r ↦ the sum over row r — and since the 64 blocks of 64 rows tile the 4096 rows, each output array ends
  holding that function everywhere: the three columns `colPT`, `colP`, `colT`.
-/
import proofs.«141777_j5471788335563_1_alg».proof.Proof.Gen.KernelIdeal.Frame
import proofs.«141777_j5471788335563_1_alg».proof.Proof.SliceSums
import Idealize.ShloMosaic.Lib.Pipeline.Value
import Idealize.ShloMosaic.Lib.ValueIdx
import Idealize.ShloMosaic.PureOps.Ideal.Laws

set_option maxRecDepth 16384

noncomputable section

namespace Cert.KernelIdeal.RowSums

open Idealize.ShloMosaic Idealize.ShloMosaic.TcCoe Idealize.SL.Sem Idealize.ShloMosaic.ValueIdx
open Cert.KernelIdeal Cert.KernelIdeal.Gen Cert.Dice

/-! ## The body's three stored values, at a row -/

/-- Row r of a [64] vector with column k put back is entry (r, k) of the [64,16384] block. -/
theorem lift_row (r : Fin 64) (k : Fin 16384) : reduces_S64x16384_S64.lift (ix1 r) k = ix2 r k :=
  funext fun a => Fin.ext (by match a with | ⟨0, _⟩ => rfl | ⟨1, _⟩ => rfl)

/-- Entry r of a [64] vector and entry (r, 0) of its [64,1] reshape sit at the same position. -/
theorem col_pos (r : Fin 64) : (S64.rowMajor (ix1 r)).val = (S64x1.rowMajor (ix2 r (0 : Fin 1))).val := by
  rw [Shape.rowMajor_val_one, Shape.rowMajor_val_two]; show r.val = r.val * 1 + 0; omega

/-- The first stored column, at row r: the sum over the row of sigmoid(x)·t. -/
theorem pay3_apply (x0 x1 : Vec Ideal S64x16384 .f32) (r : Fin 64) :
    k0_pay3 (F := Ideal) x0 x1 (ix2 r (0 : Fin 1)) = ∑ k : Fin 16384, Ideal.logistic (x0 (ix2 r k)) * x1 (ix2 r k) := by
  unfold k0_pay3 k0_pay1 k0_pay2
  dsimp only
  rw [shapeCast_self, shapeCast_self]
  refine (shapeCast_apply _ shapeCasts_S64_S64x1 (ix2 r (0 : Fin 1)) (ix1 r) (col_pos r)).trans ?_
  refine (Ideal.multiReduction_add_single _ 0x00000000#32 reduces_S64x16384_S64 (.inl rfl) rfl (ix1 r)).trans ?_
  refine Finset.sum_congr rfl fun k _ => ?_
  exact congrArg (fun i => Ideal.logistic (x0 i) * x1 i) (lift_row r k)

/-- The second stored column, at row r: the sum over the row of sigmoid(x). -/
theorem pay4_apply (x0 : Vec Ideal S64x16384 .f32) (r : Fin 64) :
    k0_pay4 (F := Ideal) x0 (ix2 r (0 : Fin 1)) = ∑ k : Fin 16384, Ideal.logistic (x0 (ix2 r k)) := by
  unfold k0_pay4 k0_pay1
  dsimp only
  rw [shapeCast_self]
  refine (shapeCast_apply _ shapeCasts_S64_S64x1 (ix2 r (0 : Fin 1)) (ix1 r) (col_pos r)).trans ?_
  refine (Ideal.multiReduction_add_single _ 0x00000000#32 reduces_S64x16384_S64 (.inl rfl) rfl (ix1 r)).trans ?_
  refine Finset.sum_congr rfl fun k _ => ?_
  exact congrArg (fun i => Ideal.logistic (x0 i)) (lift_row r k)

/-- The third stored column, at row r: the sum over the row of t. -/
theorem pay5_apply (x1 : Vec Ideal S64x16384 .f32) (r : Fin 64) :
    k0_pay5 (F := Ideal) x1 (ix2 r (0 : Fin 1)) = ∑ k : Fin 16384, x1 (ix2 r k) := by
  unfold k0_pay5 k0_pay2
  dsimp only
  rw [shapeCast_self]
  refine (shapeCast_apply _ shapeCasts_S64_S64x1 (ix2 r (0 : Fin 1)) (ix1 r) (col_pos r)).trans ?_
  refine (Ideal.multiReduction_add_single _ 0x00000000#32 reduces_S64x16384_S64 (.inl rfl) rfl (ix1 r)).trans ?_
  refine Finset.sum_congr rfl fun k _ => ?_
  exact congrArg (fun i => x1 i) (lift_row r k)

/-! ## A block's stored column is the whole matrices' row sums on the block's rows

Stated over variables: `x0`, `x1` any blocks that hold rows 64b … 64b+63 of `X`, `T`. -/

/-- An index of a [64,1] column is (r, 0). -/
theorem split_col (j : S64x1.Idx) : ∃ r : Fin 64, j = ix2 r (0 : Fin 1) ∧ r.val = (j 0).val :=
  ⟨⟨(j 0).val, (j 0).isLt⟩, funext fun a => Fin.ext (by
    match a with
    | ⟨0, _⟩ => rfl
    | ⟨1, _⟩ => have h : (j 1).val < 1 := (j 1).isLt; show (j 1).val = 0; omega), rfl⟩

theorem pay3_block (X T : FVec Ideal S4096x16384 .f32) (x0 x1 : Vec Ideal S64x16384 .f32) (b : Nat)
    (h0 : ∀ (r : Fin 64) (k : Fin 16384) (hr : b * 64 + r.val < 4096), x0 (ix2 r k) = X (ix2 ⟨b * 64 + r.val, hr⟩ k))
    (h1 : ∀ (r : Fin 64) (k : Fin 16384) (hr : b * 64 + r.val < 4096), x1 (ix2 r k) = T (ix2 ⟨b * 64 + r.val, hr⟩ k))
    (j : S64x1.Idx) (i : S4096x1.Idx) (hi : (i 0).val = b * 64 + (j 0).val) :
    k0_pay3 (F := Ideal) x0 x1 j = colPT X T i := by
  obtain ⟨r, hj, hrj⟩ := split_col j
  rw [← hrj] at hi
  have hr : b * 64 + r.val < 4096 := hi ▸ (i 0).isLt
  have e : rowOf i = ⟨b * 64 + r.val, hr⟩ := Fin.ext hi
  rw [hj, pay3_apply]
  unfold colPT rowPT
  rw [e]
  refine Finset.sum_congr rfl fun k _ => ?_
  rw [h0 r k hr, h1 r k hr]

theorem pay4_block (X : FVec Ideal S4096x16384 .f32) (x0 : Vec Ideal S64x16384 .f32) (b : Nat)
    (h0 : ∀ (r : Fin 64) (k : Fin 16384) (hr : b * 64 + r.val < 4096), x0 (ix2 r k) = X (ix2 ⟨b * 64 + r.val, hr⟩ k))
    (j : S64x1.Idx) (i : S4096x1.Idx) (hi : (i 0).val = b * 64 + (j 0).val) :
    k0_pay4 (F := Ideal) x0 j = colP X i := by
  obtain ⟨r, hj, hrj⟩ := split_col j
  rw [← hrj] at hi
  have hr : b * 64 + r.val < 4096 := hi ▸ (i 0).isLt
  have e : rowOf i = ⟨b * 64 + r.val, hr⟩ := Fin.ext hi
  rw [hj, pay4_apply]
  unfold colP rowP
  rw [e]
  refine Finset.sum_congr rfl fun k _ => ?_
  rw [h0 r k hr]

theorem pay5_block (T : FVec Ideal S4096x16384 .f32) (x1 : Vec Ideal S64x16384 .f32) (b : Nat)
    (h1 : ∀ (r : Fin 64) (k : Fin 16384) (hr : b * 64 + r.val < 4096), x1 (ix2 r k) = T (ix2 ⟨b * 64 + r.val, hr⟩ k))
    (j : S64x1.Idx) (i : S4096x1.Idx) (hi : (i 0).val = b * 64 + (j 0).val) :
    k0_pay5 (F := Ideal) x1 j = colT T i := by
  obtain ⟨r, hj, hrj⟩ := split_col j
  rw [← hrj] at hi
  have hr : b * 64 + r.val < 4096 := hi ▸ (i 0).isLt
  have e : rowOf i = ⟨b * 64 + r.val, hr⟩ := Fin.ext hi
  rw [hj, pay5_apply]
  unfold colT rowT
  rw [e]
  refine Finset.sum_congr rfl fun k _ => ?_
  rw [h1 r k hr]

/-! ## What a grid point writes back, and the arrays after the run -/

variable (m : (ℓ : Loc nD τ sig) → Buf (Elt Ideal) ℓ)

theorem hz : (![0, 0] : Fin 2 → Nat) = fun _ => 0 := funext fun a => by fin_cases a <;> rfl

/-- Every window's block at point t is block t along the rows, and the only block along the columns
    (decided over the 64 points). -/
theorem idx_in : ∀ t : Fin cfg0.N,
    win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)
theorem idx_out2 : ∀ t : Fin cfg0.N, win0_2.index t (0 : Fin 2) = t.val ∧ win0_2.index t (1 : Fin 2) = 0 :=
  (by decide +kernel : ∀ t : Fin grid0.N, _)
theorem idx_out3 : ∀ t : Fin cfg0.N, win0_3.index t (0 : Fin 2) = t.val ∧ win0_3.index t (1 : Fin 2) = 0 :=
  (by decide +kernel : ∀ t : Fin grid0.N, _)
theorem idx_out4 : ∀ t : Fin cfg0.N, win0_4.index t (0 : Fin 2) = t.val ∧ win0_4.index t (1 : Fin 2) = 0 :=
  (by decide +kernel : ∀ t : Fin grid0.N, _)

/-- The first input's block at point t holds rows 64t … 64t+63 of the first matrix, -/
theorem iblk0_apply (c : Dev nD) (t : Fin cfg0.N) (r : Fin 64) (k : Fin 16384) (hr : t.val * 64 + r.val < 4096) :
    iblk m c 0 t (ix2 r k) = V m c main_v0 (ix2 ⟨t.val * 64 + r.val, hr⟩ k) := by
  obtain ⟨e0, e1, -⟩ := idx_in t
  show V m c main_v0 (((cfg0.win 0).blk t).view.emb (ix2 r k)) = _
  refine congrArg (V m c main_v0) (funext fun a => Fin.ext ?_)
  match a with
  | ⟨0, _⟩ => show win0_0.index t (0 : Fin 2) * 64 + 1 * r.val = t.val * 64 + r.val; omega
  | ⟨1, _⟩ => show win0_0.index t (1 : Fin 2) * 16384 + 1 * k.val = k.val; omega

/-- and the second input's block those rows of the second. -/
theorem iblk1_apply (c : Dev nD) (t : Fin cfg0.N) (r : Fin 64) (k : Fin 16384) (hr : t.val * 64 + r.val < 4096) :
    iblk m c 1 t (ix2 r k) = V m c main_v1 (ix2 ⟨t.val * 64 + r.val, hr⟩ k) := by
  obtain ⟨-, -, e0, e1⟩ := idx_in t
  show V m c main_v1 (((cfg0.win 1).blk t).view.emb (ix2 r k)) = _
  refine congrArg (V m c main_v1) (funext fun a => Fin.ext ?_)
  match a with
  | ⟨0, _⟩ => show win0_1.index t (0 : Fin 2) * 64 + 1 * r.val = t.val * 64 + r.val; omega
  | ⟨1, _⟩ => show win0_1.index t (1 : Fin 2) * 16384 + 1 * k.val = k.val; omega

/-! ### Output window 2 -/

set_option maxRecDepth 65536 in
/-- Point t writes back rows 64t … 64t+63 of the column. -/
theorem flushed2_eq (c : Dev nD) (t : Fin cfg0.N) :
    (dats m 0 c).flushed 2 t = ((cfg0.win 2).blk t).view.read (Elt Ideal) (colPT (V m c main_v0) (V m c main_v1)) := by
  show (cfg0.win 2).cut (grid0.coords t) ((dats m 0 c).after 2 t) = _
  rw [after0_2]
  unfold out0_2
  rw [View.canon_unit_zero hz]
  simp only [View.ld_unit_zero (S := S64x16384) hz]
  have key := pay3_block (V m c main_v0) (V m c main_v1) (iblk m c 0 t) (iblk m c 1 t) t.val
    (fun r k hr => iblk0_apply m c t r k hr) (fun r k hr => iblk1_apply m c t r k hr)
  funext j
  have hi : ((((cfg0.win 2).blk t).view.emb j) 0).val = t.val * 64 + (((win0 2).xinj (grid0.coords t) j) 0).val := by
    obtain ⟨e0, -⟩ := idx_out2 t
    show win0_2.index t (0 : Fin 2) * 64 + 1 * (j 0).val = t.val * 64 + (j 0).val
    omega
  exact key ((win0 2).xinj (grid0.coords t) j) (((cfg0.win 2).blk t).view.emb j) hi

/-- An index of the column is in point t's block iff its row is one of the 64 rows of block t. -/
theorem mem_blk2 (t : Fin cfg0.N) (i : S4096x1.Idx) :
    i ∈ ((cfg0.win 2).blk t).view.set ↔ ∀ a : Fin 2, win0_2.index t a * S64x1.size a ≤ (i a).val ∧ (i a).val < win0_2.index t a * S64x1.size a + S64x1.size a := by
  show i ∈ ((View.whole main_v2_0).slice (win0_2.rect t)).set ↔ _
  rw [View.set_slice_whole, Rect.mem_set_unit]
  exact Iff.rfl

/-- Row r is written back by point r / 64: the 64 blocks tile the 4096 rows. -/
theorem cover2 (i : S4096x1.Idx) : ∃ t : Fin cfg0.N, (cfg0.win 2).flush t = true ∧ i ∈ ((cfg0.win 2).blk t).view.set := by
  have hN : grid0.N = 64 := N_0
  have hi0 : (i 0).val < 4096 := (i 0).isLt
  have hi1 : (i 1).val < 1 := (i 1).isLt
  refine ⟨⟨(i 0).val / 64, by show (i 0).val / 64 < grid0.N; omega⟩, flush0_2 _, ?_⟩
  rw [mem_blk2]
  obtain ⟨e0, e1⟩ := idx_out2 ⟨(i 0).val / 64, by show (i 0).val / 64 < grid0.N; omega⟩
  intro a
  match a with
  | ⟨0, _⟩ => show win0_2.index _ (0 : Fin 2) * 64 ≤ (i 0).val ∧ (i 0).val < win0_2.index _ (0 : Fin 2) * 64 + 64; rw [e0]; show (i 0).val / 64 * 64 ≤ (i 0).val ∧ (i 0).val < (i 0).val / 64 * 64 + 64; omega
  | ⟨1, _⟩ => show win0_2.index _ (1 : Fin 2) * 1 ≤ (i 1).val ∧ (i 1).val < win0_2.index _ (1 : Fin 2) * 1 + 1; rw [e1]; omega

/-- The array after the run. -/
theorem final2 (c : Dev nD) : (dats m 0 c).arrAt 2 cfg0.N = colPT (V m c main_v0) (V m c main_v1) :=
  (dats m 0 c).arrAt_eq_of_cover 2 _ (fun t _ => flushed2_eq m c t) cover2

/-! ### Output window 3 -/

set_option maxRecDepth 65536 in
/-- Point t writes back rows 64t … 64t+63 of the column. -/
theorem flushed3_eq (c : Dev nD) (t : Fin cfg0.N) :
    (dats m 0 c).flushed 3 t = ((cfg0.win 3).blk t).view.read (Elt Ideal) (colP (V m c main_v0)) := by
  show (cfg0.win 3).cut (grid0.coords t) ((dats m 0 c).after 3 t) = _
  rw [after0_3]
  unfold out0_3
  rw [View.canon_unit_zero hz]
  simp only [View.ld_unit_zero (S := S64x16384) hz]
  have key := pay4_block (V m c main_v0) (iblk m c 0 t) t.val
    (fun r k hr => iblk0_apply m c t r k hr)
  funext j
  have hi : ((((cfg0.win 3).blk t).view.emb j) 0).val = t.val * 64 + (((win0 3).xinj (grid0.coords t) j) 0).val := by
    obtain ⟨e0, -⟩ := idx_out3 t
    show win0_3.index t (0 : Fin 2) * 64 + 1 * (j 0).val = t.val * 64 + (j 0).val
    omega
  exact key ((win0 3).xinj (grid0.coords t) j) (((cfg0.win 3).blk t).view.emb j) hi

/-- An index of the column is in point t's block iff its row is one of the 64 rows of block t. -/
theorem mem_blk3 (t : Fin cfg0.N) (i : S4096x1.Idx) :
    i ∈ ((cfg0.win 3).blk t).view.set ↔ ∀ a : Fin 2, win0_3.index t a * S64x1.size a ≤ (i a).val ∧ (i a).val < win0_3.index t a * S64x1.size a + S64x1.size a := by
  show i ∈ ((View.whole main_v2_1).slice (win0_3.rect t)).set ↔ _
  rw [View.set_slice_whole, Rect.mem_set_unit]
  exact Iff.rfl

/-- Row r is written back by point r / 64: the 64 blocks tile the 4096 rows. -/
theorem cover3 (i : S4096x1.Idx) : ∃ t : Fin cfg0.N, (cfg0.win 3).flush t = true ∧ i ∈ ((cfg0.win 3).blk t).view.set := by
  have hN : grid0.N = 64 := N_0
  have hi0 : (i 0).val < 4096 := (i 0).isLt
  have hi1 : (i 1).val < 1 := (i 1).isLt
  refine ⟨⟨(i 0).val / 64, by show (i 0).val / 64 < grid0.N; omega⟩, flush0_3 _, ?_⟩
  rw [mem_blk3]
  obtain ⟨e0, e1⟩ := idx_out3 ⟨(i 0).val / 64, by show (i 0).val / 64 < grid0.N; omega⟩
  intro a
  match a with
  | ⟨0, _⟩ => show win0_3.index _ (0 : Fin 2) * 64 ≤ (i 0).val ∧ (i 0).val < win0_3.index _ (0 : Fin 2) * 64 + 64; rw [e0]; show (i 0).val / 64 * 64 ≤ (i 0).val ∧ (i 0).val < (i 0).val / 64 * 64 + 64; omega
  | ⟨1, _⟩ => show win0_3.index _ (1 : Fin 2) * 1 ≤ (i 1).val ∧ (i 1).val < win0_3.index _ (1 : Fin 2) * 1 + 1; rw [e1]; omega

/-- The array after the run. -/
theorem final3 (c : Dev nD) : (dats m 0 c).arrAt 3 cfg0.N = colP (V m c main_v0) :=
  (dats m 0 c).arrAt_eq_of_cover 3 _ (fun t _ => flushed3_eq m c t) cover3

/-! ### Output window 4 -/

set_option maxRecDepth 65536 in
/-- Point t writes back rows 64t … 64t+63 of the column. -/
theorem flushed4_eq (c : Dev nD) (t : Fin cfg0.N) :
    (dats m 0 c).flushed 4 t = ((cfg0.win 4).blk t).view.read (Elt Ideal) (colT (V m c main_v1)) := by
  show (cfg0.win 4).cut (grid0.coords t) ((dats m 0 c).after 4 t) = _
  rw [after0_4]
  unfold out0_4
  rw [View.canon_unit_zero hz]
  simp only [View.ld_unit_zero (S := S64x16384) hz]
  have key := pay5_block (V m c main_v1) (iblk m c 1 t) t.val
    (fun r k hr => iblk1_apply m c t r k hr)
  funext j
  have hi : ((((cfg0.win 4).blk t).view.emb j) 0).val = t.val * 64 + (((win0 4).xinj (grid0.coords t) j) 0).val := by
    obtain ⟨e0, -⟩ := idx_out4 t
    show win0_4.index t (0 : Fin 2) * 64 + 1 * (j 0).val = t.val * 64 + (j 0).val
    omega
  exact key ((win0 4).xinj (grid0.coords t) j) (((cfg0.win 4).blk t).view.emb j) hi

/-- An index of the column is in point t's block iff its row is one of the 64 rows of block t. -/
theorem mem_blk4 (t : Fin cfg0.N) (i : S4096x1.Idx) :
    i ∈ ((cfg0.win 4).blk t).view.set ↔ ∀ a : Fin 2, win0_4.index t a * S64x1.size a ≤ (i a).val ∧ (i a).val < win0_4.index t a * S64x1.size a + S64x1.size a := by
  show i ∈ ((View.whole main_v2_2).slice (win0_4.rect t)).set ↔ _
  rw [View.set_slice_whole, Rect.mem_set_unit]
  exact Iff.rfl

/-- Row r is written back by point r / 64: the 64 blocks tile the 4096 rows. -/
theorem cover4 (i : S4096x1.Idx) : ∃ t : Fin cfg0.N, (cfg0.win 4).flush t = true ∧ i ∈ ((cfg0.win 4).blk t).view.set := by
  have hN : grid0.N = 64 := N_0
  have hi0 : (i 0).val < 4096 := (i 0).isLt
  have hi1 : (i 1).val < 1 := (i 1).isLt
  refine ⟨⟨(i 0).val / 64, by show (i 0).val / 64 < grid0.N; omega⟩, flush0_4 _, ?_⟩
  rw [mem_blk4]
  obtain ⟨e0, e1⟩ := idx_out4 ⟨(i 0).val / 64, by show (i 0).val / 64 < grid0.N; omega⟩
  intro a
  match a with
  | ⟨0, _⟩ => show win0_4.index _ (0 : Fin 2) * 64 ≤ (i 0).val ∧ (i 0).val < win0_4.index _ (0 : Fin 2) * 64 + 64; rw [e0]; show (i 0).val / 64 * 64 ≤ (i 0).val ∧ (i 0).val < (i 0).val / 64 * 64 + 64; omega
  | ⟨1, _⟩ => show win0_4.index _ (1 : Fin 2) * 1 ≤ (i 1).val ∧ (i 1).val < win0_4.index _ (1 : Fin 2) * 1 + 1; rw [e1]; omega

/-- The array after the run. -/
theorem final4 (c : Dev nD) : (dats m 0 c).arrAt 4 cfg0.N = colT (V m c main_v1) :=
  (dats m 0 c).arrAt_eq_of_cover 4 _ (fun t _ => flushed4_eq m c t) cover4

end Cert.KernelIdeal.RowSums

end
-- ==== Proof.FirstPixel.lean ====
/-
  The first pixel of every target slice, as each program takes it.

  Whether a slice (b,c,d) counts in the mean is decided by the first pixel of its target, t[b,c,d,0,0].
  * The kernel's host code cuts the volume [2,32,64,128,128] to [2,32,64,1,1] (height 0, width 0) and drops the two
    unit axes.
  * The reference first views the volume as [2,32,64,16384], cuts that to [2,32,64,1] (pixel 0) and drops the unit axis.
  Pixel 0 of a slice is its element at height 0 and width 0 — the row-major position ((b·32+c)·64+d)·16384 in both
  views — so both arrays are (b,c,d) ↦ t[b,c,d,0,0].
-/
import Idealize.ShloMosaic.Lib.Pipeline.Value
import Idealize.ShloMosaic.Lib.ValueIdx
import proofs.«141777_j5471788335563_1_alg».proof.Proof.SliceSums

noncomputable section

namespace Cert.Dice

open Idealize.ShloMosaic Idealize.ShloMosaic.ValueIdx

/-- The volume cut to its first pixel per slice, unit axes kept. -/
abbrev Svol11 : Shape := ⟨5, ![2, 32, 64, 1, 1]⟩
/-- The 4-d view cut to its first pixel per slice, unit axis kept. -/
abbrev Sslices1 : Shape := ⟨4, ![2, 32, 64, 1]⟩

/-- (b,c,d) ↦ x[b,c,d,0,0]. -/
def firstPixel (x : FVec Ideal Svol .f32) : FVec Ideal Sbcd .f32 :=
  fun i => x (ix5 (⟨(i 0).val, (i 0).isLt⟩ : Fin 2) (⟨(i 1).val, (i 1).isLt⟩ : Fin 32) (⟨(i 2).val, (i 2).isLt⟩ : Fin 64)
    (0 : Fin 128) (0 : Fin 128))

/-- Cutting the 5-d volume at height 0, width 0 and dropping the unit axes. -/
theorem firstPixel_of_volume (x : FVec Ideal Svol .f32) (hs : Svol.Slices ![0, 0, 0, 0, 0] Svol11)
    (hc : Svol11.ShapeCasts Sbcd) :
    shapeCast Sbcd (extractStridedSlice Svol11 ![0, 0, 0, 0, 0] x hs) hc = firstPixel x := by
  funext i
  show _ = x (ix5 (⟨(i 0).val, (i 0).isLt⟩ : Fin 2) (⟨(i 1).val, (i 1).isLt⟩ : Fin 32) (⟨(i 2).val, (i 2).isLt⟩ : Fin 64)
    (0 : Fin 128) (0 : Fin 128))
  refine (shapeCast_apply _ hc i (ix5 (⟨(i 0).val, (i 0).isLt⟩ : Fin 2) (⟨(i 1).val, (i 1).isLt⟩ : Fin 32)
    (⟨(i 2).val, (i 2).isLt⟩ : Fin 64) (0 : Fin 1) (0 : Fin 1)) ?_).trans ?_
  · rw [Shape.rowMajor_val_five, Shape.rowMajor_val_three]
    show ((((i 0).val * 32 + (i 1).val) * 64 + (i 2).val) * 1 + 0) * 1 + 0 = ((i 0).val * 32 + (i 1).val) * 64 + (i 2).val
    omega
  · refine extractStridedSlice_apply _ x hs _ _ fun a => ?_
    match a with
    | ⟨0, _⟩ => show (i 0).val = 0 + (i 0).val; omega
    | ⟨1, _⟩ => show (i 1).val = 0 + (i 1).val; omega
    | ⟨2, _⟩ => show (i 2).val = 0 + (i 2).val; omega
    | ⟨3, _⟩ => rfl
    | ⟨4, _⟩ => rfl

/-- Viewing the volume as [2,32,64,16384], cutting at pixel 0 and dropping the unit axis. -/
theorem firstPixel_of_slices (x : FVec Ideal Svol .f32) (h4 : Svol.ShapeCasts Sslices)
    (hs : Sslices.Slices ![0, 0, 0, 0] Sslices1) (hc : Sslices1.ShapeCasts Sbcd) :
    shapeCast Sbcd (extractStridedSlice Sslices1 ![0, 0, 0, 0] (shapeCast Sslices x h4) hs) hc = firstPixel x := by
  funext i
  show _ = x (ix5 (⟨(i 0).val, (i 0).isLt⟩ : Fin 2) (⟨(i 1).val, (i 1).isLt⟩ : Fin 32) (⟨(i 2).val, (i 2).isLt⟩ : Fin 64)
    (0 : Fin 128) (0 : Fin 128))
  refine (shapeCast_apply _ hc i (ix4 (⟨(i 0).val, (i 0).isLt⟩ : Fin 2) (⟨(i 1).val, (i 1).isLt⟩ : Fin 32)
    (⟨(i 2).val, (i 2).isLt⟩ : Fin 64) (0 : Fin 1)) ?_).trans ?_
  · rw [Shape.rowMajor_val_four, Shape.rowMajor_val_three]
    show (((i 0).val * 32 + (i 1).val) * 64 + (i 2).val) * 1 + 0 = ((i 0).val * 32 + (i 1).val) * 64 + (i 2).val
    omega
  refine (extractStridedSlice_apply _ _ hs _ (ix4 (⟨(i 0).val, (i 0).isLt⟩ : Fin 2) (⟨(i 1).val, (i 1).isLt⟩ : Fin 32)
    (⟨(i 2).val, (i 2).isLt⟩ : Fin 64) (0 : Fin 16384)) fun a => ?_).trans ?_
  · match a with
    | ⟨0, _⟩ => show (i 0).val = 0 + (i 0).val; omega
    | ⟨1, _⟩ => show (i 1).val = 0 + (i 1).val; omega
    | ⟨2, _⟩ => show (i 2).val = 0 + (i 2).val; omega
    | ⟨3, _⟩ => rfl
  refine shapeCast_apply x h4 _ _ ?_
  rw [Shape.rowMajor_val_five, Shape.rowMajor_val_four]
  show ((((i 0).val * 32 + (i 1).val) * 64 + (i 2).val) * 128 + 0) * 128 + 0
      = (((i 0).val * 32 + (i 1).val) * 64 + (i 2).val) * 16384 + 0
  omega

end Cert.Dice

end
-- ==== Proof.Result.lean ====
/-
  The Dice loss of a pair of volumes and a mask, as ONE function of the three inputs.

  With I, P, T the per-slice sums of sigmoid(x)·t, sigmoid(x) and t over the 4-d view [2,32,64,16384] of the inputs,
  and t₀ the first pixel of each target slice, the result is the shared tail of (I, P, T, t₀, mask). Both programs
  are proved to end with this term, so they end with equal results.
-/
import proofs.«141777_j5471788335563_1_alg».proof.Proof.FirstPixel

noncomputable section

namespace Cert.Dice

open Idealize.ShloMosaic

theorem vol_slices : Svol.ShapeCasts Sslices := by decide
theorem vol_rows : Svol.ShapeCasts Srows := by decide
theorem col_bcd : Scol.ShapeCasts Sbcd := by decide

def result (x0 x1 : FVec Ideal Svol .f32) (mask : IVec Sbc 32) : FVec Ideal Sscalar .f32 :=
  tail (slicePT (shapeCast Sslices x0 vol_slices) (shapeCast Sslices x1 vol_slices))
    (sliceP (shapeCast Sslices x0 vol_slices)) (sliceT (shapeCast Sslices x1 vol_slices)) (firstPixel x1) mask

/-- The same from the kernel's side: the tail of its three [4096,1] columns reshaped to [2,32,64]. -/
theorem result_of_columns (x0 x1 : FVec Ideal Svol .f32) (mask : IVec Sbc 32) :
    tail (shapeCast Sbcd (colPT (shapeCast Srows x0 vol_rows) (shapeCast Srows x1 vol_rows)) col_bcd)
        (shapeCast Sbcd (colP (shapeCast Srows x0 vol_rows)) col_bcd)
        (shapeCast Sbcd (colT (shapeCast Srows x1 vol_rows)) col_bcd) (firstPixel x1) mask
      = result x0 x1 mask := by
  rw [colPT_reshape x0 x1 vol_rows vol_slices col_bcd, colP_reshape x0 vol_rows vol_slices col_bcd,
    colT_reshape x1 vol_rows vol_slices col_bcd]
  rfl

end Cert.Dice

end
-- ==== Proof.KernelValue.lean ====
/-
  The kernel's run with its result named.

  Before the pallas_call the host code views each input volume as a [4096,16384] matrix; the call leaves the three
  row-sum columns of those matrices in its outputs (the arrays after the run, read off the frame); after the call
  the host code reshapes the columns to [2,32,64], takes the first pixel of each target slice, and finishes with
  the operations of the shared tail. Each of the three stretches is read back as a term of the arguments, and the
  whole is the Dice loss of the three inputs.
-/
import proofs.«141777_j5471788335563_1_alg».proof.Proof.Gen.KernelIdeal.Frame
import proofs.«141777_j5471788335563_1_alg».proof.Proof.RowSums
import proofs.«141777_j5471788335563_1_alg».proof.Proof.Result
import Idealize.ShloMosaic.Lib.StableHlo.Run

set_option maxRecDepth 16384

noncomputable section

namespace Cert.KernelIdeal.DiceValue

open Idealize.ShloMosaic Idealize.ShloMosaic.TcCoe Idealize.SL.Sem Idealize.ShloMosaic.StableHlo
open Cert.KernelIdeal Cert.KernelIdeal.Gen Cert.Dice

variable (m : (ℓ : Loc nD τ sig) → Buf (Elt Ideal) ℓ) (ρ : Dev nD → PrngReg)

/-! ## Before the call: the matrices the region finds -/

theorem V_main_v0 (c : Dev nD) :
    V m c main_v0 = shapeCast S4096x16384 (m ((c : Thread nD τ).loc main_arg0)) shapeCasts_S2x32x64x128x128_S4096x16384 := by
  show StableHlo.after hostOps0 (fun b => m (c, b)) (Proc.devRef .tc main_v0) = _
  after_results
  rfl

theorem V_main_v1 (c : Dev nD) :
    V m c main_v1 = shapeCast S4096x16384 (m ((c : Thread nD τ).loc main_arg1)) shapeCasts_S2x32x64x128x128_S4096x16384 := by
  show StableHlo.after hostOps0 (fun b => m (c, b)) (Proc.devRef .tc main_v1) = _
  after_results
  rfl

/-! ## After the call: the host operations are the shared tail -/

set_option maxRecDepth 8192 in
set_option maxHeartbeats 2000000 in
/-- From ANY contents of the buffers, the 33 host operations after the call leave the shared tail of the three
    output columns reshaped, the first pixel of the second argument's slices, and the third argument. -/
theorem tail_after (W : Valuation τ sig (Elt Ideal)) :
    StableHlo.after (hostOps1 (F := Ideal)) W (Proc.devRef .tc main_v27)
      = tail
          (shapeCast S2x32x64 (W (Proc.devRef .tc main_v2_0)) shapeCasts_S4096x1_S2x32x64)
          (shapeCast S2x32x64 (W (Proc.devRef .tc main_v2_1)) shapeCasts_S4096x1_S2x32x64)
          (shapeCast S2x32x64 (W (Proc.devRef .tc main_v2_2)) shapeCasts_S4096x1_S2x32x64)
          (shapeCast S2x32x64 (extractStridedSlice S2x32x64x1x1 ![0, 0, 0, 0, 0] (W (Proc.devRef .tc main_arg1)) slices_S2x32x64x128x128_S2x32x64x1x1_0_0_0_0_0) shapeCasts_S2x32x64x1x1_S2x32x64)
          (W (Proc.devRef .tc main_arg2)) := by
  after_results_simp <;> rfl

/-! ## The buffers as the call leaves them -/

/-- The buffers after the region: the call's arrays at what the run left, every other buffer as the region found it. -/
abbrev afterRegion (c : Dev nD) : Valuation τ sig (Elt Ideal) :=
  Pipeline.withArrays spec0 c (V0 m c) fun w => (dats m 0 c).arrAt w cfg0.N

theorem W_out2 (c : Dev nD) : afterRegion m c (Proc.devRef .tc main_v2_0) = colPT (V m c main_v0) (V m c main_v1) :=
  (Pipeline.withArrays_arr spec0 winFacts0.arr_inj c _ _ 2).trans (RowSums.final2 m c)
theorem W_out3 (c : Dev nD) : afterRegion m c (Proc.devRef .tc main_v2_1) = colP (V m c main_v0) :=
  (Pipeline.withArrays_arr spec0 winFacts0.arr_inj c _ _ 3).trans (RowSums.final3 m c)
theorem W_out4 (c : Dev nD) : afterRegion m c (Proc.devRef .tc main_v2_2) = colT (V m c main_v1) :=
  (Pipeline.withArrays_arr spec0 winFacts0.arr_inj c _ _ 4).trans (RowSums.final4 m c)
theorem W_arg1 (c : Dev nD) : afterRegion m c (Proc.devRef .tc main_arg1) = m ((c : Thread nD τ).loc main_arg1) :=
  (Pipeline.withArrays_of_ne _ c (V0 m c) _ main_arg1 (by exact (by decide : ∀ w, Pipeline.arrRef spec0 w ≠ main_arg1))).trans (V_main_arg1 m c)
theorem W_arg2 (c : Dev nD) : afterRegion m c (Proc.devRef .tc main_arg2) = m ((c : Thread nD τ).loc main_arg2) :=
  (Pipeline.withArrays_of_ne _ c (V0 m c) _ main_arg2 (by exact (by decide : ∀ w, Pipeline.arrRef spec0 w ≠ main_arg2))).trans (V_main_arg2 m c)

/-! ## The result -/

/-- What the frame run's post says @main's result buffer holds is the Dice loss of the three arguments. -/
theorem result_eq (c : Dev nD) :
    Pipeline.afterTail₀ cfgs (dats m) 0 (V0 m) [hostOps1] c main_v27
      = result (m ((c : Thread nD τ).loc main_arg0)) (m ((c : Thread nD τ).loc main_arg1)) (m ((c : Thread nD τ).loc main_arg2)) := by
  unfold Pipeline.afterTail₀
  show StableHlo.after hostOps1 (afterRegion m c) (Proc.devRef .tc main_v27) = _
  rw [tail_after, W_out2, W_out3, W_out4, W_arg1, W_arg2, V_main_v0, V_main_v1,
    firstPixel_of_volume (m ((c : Thread nD τ).loc main_arg1)) slices_S2x32x64x128x128_S2x32x64x1x1_0_0_0_0_0 shapeCasts_S2x32x64x1x1_S2x32x64]
  exact result_of_columns _ _ _

/-- Every weakly fair execution of the idealized kernel program terminates with its result at the Dice loss of its
    arguments, the arguments unchanged. -/
theorem run : θ_run defs (onTc (τ := τ) (main (F := Ideal))) ⟨m, fun _ => 0, ρ⟩ fun r => ∀ c : Dev nD,
      r.2.mem ((c.tc : Thread nD τ).loc main_v27)
        = result (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v27 (Pipeline.mem_restRefs_of main_v27 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.DiceValue

end
-- ==== Proof.Consts.lean ====
/-
  The one float literal whose value the proof needs: the word 0x3F800000 is the number 1.

  The reference spells the sigmoid out as 1 / (1 + e^(−x)) with that literal for both ones, while the kernel's
  sigmoid is one operation whose meaning is that same expression with the number 1; so the two meet once the
  literal is read. (The literals 2, −1 and 0 occur on both sides in the same places and are never read.)
-/
import Idealize.ShloMosaic.PureOps.Ideal

namespace Cert.Dice

open Idealize.ShloMosaic

theorem ofBits_one : Ideal.ofBits .f32 0x3F800000#32 = 1 := by
  simp [Ideal.ofBits, Ideal.ieee, -EReal.coe_mul]; norm_num

/-- The sigmoid as the reference spells it on the host — negate, exponential, add 1, divide 1 by it — is the
    kernel's one-operation sigmoid, on every extended real. -/
theorem host_sigmoid (y : Ideal .f32) :
    FloatOps.hostDivf (FloatOps.ofBits (F := Ideal) .f32 0x3F800000#32)
        (FloatOps.addf (FloatOps.ofBits (F := Ideal) .f32 0x3F800000#32) (FloatOps.hostUnary .exp (FloatOps.hostNegf y)))
      = Ideal.logistic y := by
  show FloatOps.hostDivf (Ideal.ofBits .f32 0x3F800000#32)
        (FloatOps.addf (Ideal.ofBits .f32 0x3F800000#32) (FloatOps.hostUnary .exp (FloatOps.hostNegf y))) = _
  rw [ofBits_one]
  rfl

end Cert.Dice
-- ==== Proof.RefValue.lean ====
/-
  The reference's result as the shared tail of its own per-slice sums.

  The reference computes, over the 4-d view [2,32,64,16384] of its inputs, for each slice (b,c,d):
    I = 0 + Σ_k s(x)·t,   P = 0 + Σ_k s(x),   T = 0 + Σ_k t,
  where it spells the sigmoid s(x) as 1 / (1 + e^(−x)), each sum starts from the literal 0, and k runs over the
  16384 pixels. Then it takes the first pixel of each target slice and the mask, and finishes exactly as the
  shared tail does. Here:
    * 0 + Σ = Σ (the literal is the number 0);
    * 1 / (1 + e^(−x)) with the literal 1 is the sigmoid, on every extended real;
    * the sigmoid is applied element by element, so applying it before the 4-d view is applying it after.
  So I, P, T are the slice sums of the 4-d views of the two inputs, and t₀ is the first pixel.
-/
import proofs.«141777_j5471788335563_1_alg».proof.Proof.Gen.ReferenceIdeal.Read
import proofs.«141777_j5471788335563_1_alg».proof.Proof.SliceSums
import proofs.«141777_j5471788335563_1_alg».proof.Proof.Result
import proofs.«141777_j5471788335563_1_alg».proof.Proof.Consts
import Idealize.ShloMosaic.PureOps.Ideal.Laws

noncomputable section

namespace Cert.ReferenceIdeal.DiceValue

open Idealize.ShloMosaic Idealize.ShloMosaic.ValueIdx
open Cert.ReferenceIdeal Cert.ReferenceIdeal.Gen Cert.ReferenceIdeal.Read Cert.Dice

variable (x0 x1 : (⟨S2x32x64x128x128, .f32⟩ : BufTy).Contents (Elt Ideal)) (x2 : (⟨S2x32, .i32⟩ : BufTy).Contents (Elt Ideal))

/-- After its three sums the reference does what the shared tail does, operation by operation. -/
theorem result_eq_tail :
    val_main_v33 (F := Ideal) x0 x1 x2
      = tail (val_main_v9 (F := Ideal) x0 x1) (val_main_v10 (F := Ideal) x0) (val_main_v11 (F := Ideal) x1)
          (val_main_v21 (F := Ideal) x1) x2 := rfl

/-- The sigmoid, spelled out and then viewed 4-d, is the sigmoid of the 4-d view. -/
theorem sigmoid_view (j : S2x32x64x16384.Idx) :
    val_main_v6 (F := Ideal) x0 j
      = Ideal.logistic (shapeCast S2x32x64x16384 x0 shapeCasts_S2x32x64x128x128_S2x32x64x16384 j) :=
  host_sigmoid _

/-- The index the generated reading gives pixel k of slice i is that pixel. -/
theorem pixel9 (i : S2x32x64.Idx) (k : Fin 16384) : idx_main_v9 i k = pixel i k :=
  funext fun a => Fin.ext (by match a with | ⟨0, _⟩ => rfl | ⟨1, _⟩ => rfl | ⟨2, _⟩ => rfl | ⟨3, _⟩ => rfl)
theorem pixel10 (i : S2x32x64.Idx) (k : Fin 16384) : idx_main_v10 i k = pixel i k :=
  funext fun a => Fin.ext (by match a with | ⟨0, _⟩ => rfl | ⟨1, _⟩ => rfl | ⟨2, _⟩ => rfl | ⟨3, _⟩ => rfl)
theorem pixel11 (i : S2x32x64.Idx) (k : Fin 16384) : idx_main_v11 i k = pixel i k :=
  funext fun a => Fin.ext (by match a with | ⟨0, _⟩ => rfl | ⟨1, _⟩ => rfl | ⟨2, _⟩ => rfl | ⟨3, _⟩ => rfl)

theorem init1 : (val_main_cst_1 (F := Ideal)) (Shape.Idx.first h_S_) = 0 := Ideal.ofBits_zero_f32
theorem init2 : (val_main_cst_2 (F := Ideal)) (Shape.Idx.first h_S_) = 0 := Ideal.ofBits_zero_f32
theorem init3 : (val_main_cst_3 (F := Ideal)) (Shape.Idx.first h_S_) = 0 := Ideal.ofBits_zero_f32

/-- I: the sum of sigmoid(x)·t over each slice. -/
theorem intersection_eq :
    val_main_v9 (F := Ideal) x0 x1
      = slicePT (shapeCast Sslices x0 shapeCasts_S2x32x64x128x128_S2x32x64x16384)
          (shapeCast Sslices x1 shapeCasts_S2x32x64x128x128_S2x32x64x16384) := by
  funext i
  rw [val_main_v9_apply, init1, zero_add]
  refine Finset.sum_congr rfl fun k _ => ?_
  rw [pixel9, val_main_v8_apply, sigmoid_view]
  rfl

/-- P: the sum of sigmoid(x) over each slice. -/
theorem predicted_eq :
    val_main_v10 (F := Ideal) x0 = sliceP (shapeCast Sslices x0 shapeCasts_S2x32x64x128x128_S2x32x64x16384) := by
  funext i
  rw [val_main_v10_apply, init2, zero_add]
  refine Finset.sum_congr rfl fun k _ => ?_
  rw [pixel10, sigmoid_view]

/-- T: the sum of t over each slice. -/
theorem target_eq :
    val_main_v11 (F := Ideal) x1 = sliceT (shapeCast Sslices x1 shapeCasts_S2x32x64x128x128_S2x32x64x16384) := by
  funext i
  rw [val_main_v11_apply, init3, zero_add]
  refine Finset.sum_congr rfl fun k _ => ?_
  rw [pixel11]
  rfl

/-- t₀: the first pixel of each target slice. -/
theorem first_eq : val_main_v21 (F := Ideal) x1 = firstPixel x1 :=
  firstPixel_of_slices x1 shapeCasts_S2x32x64x128x128_S2x32x64x16384 slices_S2x32x64x16384_S2x32x64x1_0_0_0_0
    shapeCasts_S2x32x64x1_S2x32x64

/-- The reference's result is the Dice loss of its three inputs. -/
theorem result_eq : val_main_v33 (F := Ideal) x0 x1 x2 = result x0 x1 x2 := by
  rw [result_eq_tail, intersection_eq, predicted_eq, target_eq, first_eq]
  rfl

end Cert.ReferenceIdeal.DiceValue

end
-- ==== Proof.lean ====
/-
  The Dice loss kernel against its jnp reference, over the extended reals.

  Both programs take a prediction volume x and a target volume t of shape [2,32,64,128,128] and an integer mask
  of shape [2,32], and return one number. With p = sigmoid(x), for each slice (b,c,d) over its 128·128 pixels:

      I = Σ p·t,   P = Σ p,   T = Σ t,        dice = 1 − 2·I / (P + T + 1),
      valid = [t at pixel 0 ≠ −1],            loss(b,c) = (Σ_d dice·valid) / (Σ_d valid),
      result = (Σ_{b,c} loss·mask) / (Σ_{b,c} mask).

  The kernel computes I, P, T in a pallas_call over the [4096,16384] matrix view (one row per slice, 64 grid points
  of 64 rows each, a lane sum per row) and the rest on the host; the reference computes everything on the host over
  the [2,32,64,16384] view, spelling the sigmoid as 1 / (1 + e^(−x)). They agree because
    * the kernel's one-operation sigmoid IS that expression, on every extended real;
    * both views keep each element at its row-major position, so row (b·32+c)·64+d of the matrix is slice (b,c,d);
    * a lane sum from the neutral accumulator and a host sum from the literal 0 are both the plain sum of the terms;
    * after the three sums the two programs perform the same operations with the same literals.
  No law that fails at infinities (distributing, cancelling) is used, so the precondition that the inputs are
  finite is never opened: the two results are equal for all extended-real inputs.

  The frames of the two kernel programs are the generated ones; the reference has no kernel, and its frame is its
  generated run with the result dropped. The ideal pass rewrote nothing, so `preserves` has nothing to state.
-/
import proofs.«141777_j5471788335563_1_alg».proof.Defs
import proofs.«141777_j5471788335563_1_alg».proof.Proof.Gen.Kernel
import proofs.«141777_j5471788335563_1_alg».proof.Proof.Gen.Kernel.Skeleton
import proofs.«141777_j5471788335563_1_alg».proof.Proof.Gen.Kernel.Launch
import proofs.«141777_j5471788335563_1_alg».proof.Proof.Gen.Kernel.Points
import proofs.«141777_j5471788335563_1_alg».proof.Proof.Gen.Kernel.Frame
import proofs.«141777_j5471788335563_1_alg».proof.Proof.Gen.KernelIdeal
import proofs.«141777_j5471788335563_1_alg».proof.Proof.Gen.KernelIdeal.Skeleton
import proofs.«141777_j5471788335563_1_alg».proof.Proof.Gen.KernelIdeal.Launch
import proofs.«141777_j5471788335563_1_alg».proof.Proof.Gen.KernelIdeal.Points
import proofs.«141777_j5471788335563_1_alg».proof.Proof.Gen.KernelIdeal.Frame
import proofs.«141777_j5471788335563_1_alg».proof.Proof.Gen.ReferenceIdeal
import proofs.«141777_j5471788335563_1_alg».proof.Proof.Gen.Pre_finite_inputs
import proofs.«141777_j5471788335563_1_alg».proof.Proof.Gen.ReferenceIdeal.Run
import proofs.«141777_j5471788335563_1_alg».proof.Proof.Gen.ReferenceIdeal.Read
import proofs.«141777_j5471788335563_1_alg».proof.Proof.KernelValue
import proofs.«141777_j5471788335563_1_alg».proof.Proof.RefValue
import Idealize.ShloMosaic.Adequacy
import Idealize.ShloMosaic.Init

noncomputable section

namespace Cert.Proof

open Idealize.ShloMosaic Idealize.SL.Sem

/-- The word-level kernel program runs and keeps its arguments: the generated frame. -/
theorem frame_kernel : Cert.frame_Kernel := fun m ρ _ => Cert.Kernel.Gen.frame m ρ

/-- The idealized kernel program runs and keeps its arguments: the generated frame. -/
theorem frame_kernelIdeal : Cert.frame_KernelIdeal := fun m ρ _ => Cert.KernelIdeal.Gen.frame m ρ

/-- The reference is host operations only: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the three arguments, both programs end with the Dice loss of those arguments. -/
theorem algebraic : Cert.algebraic_KernelIdeal_ReferenceIdeal := by
  intro m ρ m' ρ' _ hagree
  refine ⟨fun c => Cert.Dice.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.DiceValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq, Cert.ReferenceIdeal.DiceValue.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
